-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S4x4096x2048 : Shape := ⟨3, ![4, 4096, 2048]⟩
abbrev S50257x64 : Shape := ⟨2, ![50257, 64]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S50257x64 : S_.BroadcastsInDim S50257x64 (![] : Fin 0 → Fin S50257x64.rank)
  reducesTo_S50257x64_S_d0_1 : S50257x64.ReducesTo [0, 1] S_
  bcast_S_S64x2048 : S_.BroadcastsInDim S64x2048 (![] : Fin 0 → Fin S64x2048.rank)
  reducesTo_S64x2048_S_d0_1 : S64x2048.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg0 : IVec S4x4096 32) (main_v13 : IVec S_ 1) (main_v15 : IVec S4x4096 1) (main_c_5 : IVec S_ 32) : IVec S_ 1 :=
  let main_v16 : IVec S4x4096 32 := broadcastInDim S4x4096 ![] bcast_S_S4x4096 main_c_5
  let main_v17 : IVec S4x4096 1 := cmpi .slt main_arg0 main_v16
  let main_v18 : IVec S4x4096 1 := andi main_v15 main_v17
  let main_c_6 : IVec S_ 1 := constantI S_ 1 1#1
  let main_v19 : IVec S_ 1 := (fun x v => Host.reduce IntOp.andi x v reducesTo_S4x4096_S_d0_1 h_S_) main_v18 main_c_6
  let main_v20 : IVec S_ 1 := andi main_v13 main_v19
  main_v20

def fn {F : FTy → Type} [FloatOps F] (main_arg0 : IVec S4x4096 32) (main_arg1 : FVec F S4x4096x2048 .f32) (main_arg2 : FVec F S50257x64 .f32) (main_arg3 : FVec F S64x2048 .f32) : IVec S_ 1 :=
  let main_v0 : FVec F S4x4096x2048 .f32 := Host.absf main_arg1
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S50257x64 .f32 := Host.absf main_arg2
  let main_cst_0 : FVec F S_ .f32 := constant S_ .f32 0x7F800000#32
  let main_v5 : FVec F S50257x64 .f32 := broadcastInDim S50257x64 ![] bcast_S_S50257x64 main_cst_0
  let main_v6 : IVec S50257x64 1 := cmpf .olt main_v4 main_v5
  let main_c_1 : IVec S_ 1 := constantI S_ 1 1#1
  let main_v7 : IVec S_ 1 := (fun x v => Host.reduce IntOp.andi x v reducesTo_S50257x64_S_d0_1 h_S_) main_v6 main_c_1
  let main_v8 : IVec S_ 1 := andi main_v3 main_v7
  let main_v9 : FVec F S64x2048 .f32 := Host.absf main_arg3
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_c_4 : IVec S_ 32 := constantI S_ 32 4294917039#32
  let main_v14 : IVec S4x4096 32 := broadcastInDim S4x4096 ![] bcast_S_S4x4096 main_c_4
  let main_v15 : IVec S4x4096 1 := cmpi .sge main_arg0 main_v14
  let main_c_5 : IVec S_ 32 := constantI S_ 32 50257#32
  fn_part1 (F := F) main_arg0 main_v13 main_v15 main_c_5
-- ==== Kernel.lean ====
abbrev S4x4096 : Shape := ⟨2, ![4, 4096]⟩
abbrev S4x4096x2048 : Shape := ⟨3, ![4, 4096, 2048]⟩
abbrev S50257x64 : Shape := ⟨2, ![50257, 64]⟩
abbrev S64x2048 : Shape := ⟨2, ![64, 2048]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x2048 : Shape := ⟨2, ![16384, 2048]⟩
abbrev S1024x64 : Shape := ⟨2, ![1024, 64]⟩
abbrev S1024x2048 : Shape := ⟨2, ![1024, 2048]⟩
abbrev S256x64 : Shape := ⟨2, ![256, 64]⟩
abbrev S256x2048 : Shape := ⟨2, ![256, 2048]⟩

abbrev nBuf : Space → Nat
  | .hbm => 33
  | .vmem => 7
  | .smem => 0
  | _ => 0

abbrev bufTy : (tb : Table) → Fin (tcTables nBuf tb) → BufTy
  | .hbm, ⟨0, _⟩ => ⟨S4x4096, .i32⟩
  | .hbm, ⟨1, _⟩ => ⟨S4x4096x2048, .f32⟩
  | .hbm, ⟨2, _⟩ => ⟨S50257x64, .f32⟩
  | .hbm, ⟨3, _⟩ => ⟨S64x2048, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x64, .f32⟩
  | .hbm, ⟨24, _⟩ => ⟨S16384x64, .i1⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S16384x64, .bf16⟩
  | .hbm, ⟨29, _⟩ => ⟨S64x2048, .bf16⟩
  | .hbm, ⟨30, _⟩ => ⟨S16384x2048, .f32⟩
  | .hbm, ⟨31, _⟩ => ⟨S16384x2048, .f32⟩
  | .hbm, ⟨32, _⟩ => ⟨S4x4096x2048, .f32⟩
  | .local _ .vmem, ⟨0, _⟩ => ⟨S1024x64, .bf16⟩
  | .local _ .vmem, ⟨1, _⟩ => ⟨S1024x64, .bf16⟩
  | .local _ .vmem, ⟨2, _⟩ => ⟨S64x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_c_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_c_1 : Ref sig .tc := ⟨.hbm, 13, rfl⟩
abbrev main_call0_call0_c_2 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_c_3 : Ref sig .tc := ⟨.hbm, 21, rfl⟩
abbrev main_call0_call0_v12 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst : Ref sig .tc := ⟨.hbm, 25, rfl⟩
abbrev main_call0_call0_v15 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v2 : BitVec 32 := Scalar.muli c0_i32 c256_i32
  v2
def k0_off1 (c0_i32 : BitVec 32) : Fin 2 → Nat :=
  let c256_i32 : BitVec 32 := 256#32
  let v2 : BitVec 32 := Scalar.muli c0_i32 c256_i32
  let v3 : BitVec 32 := v2
  let v4 : Index := Scalar.indexCast v3
  let c0_1 : Index := 0#32
  ![v4.toNat, 0]
def k0_off2 (c0_i32 : BitVec 32) : Fin 2 → Nat :=
  let c256_i32 : BitVec 32 := 256#32
  let v2 : BitVec 32 := Scalar.muli c0_i32 c256_i32
  let v3 : BitVec 32 := v2
  let v9 : Index := Scalar.indexCast v3
  let c0_2 : Index := 0#32
  ![v9.toNat, 0]
def k0_mult2 : BitVec 32 :=
  let c1_i32 : BitVec 32 := 1#32
  let c256_i32_5 : BitVec 32 := 256#32
  let v17 : BitVec 32 := Scalar.muli c1_i32 c256_i32_5
  v17
def k0_mult3 : BitVec 32 :=
  let c2_i32 : BitVec 32 := 2#32
  let c256_i32_11 : BitVec 32 := 256#32
  let v32 : BitVec 32 := Scalar.muli c2_i32 c256_i32_11
  v32
def k0_mult4 : BitVec 32 :=
  let c3_i32 : BitVec 32 := 3#32
  let c256_i32_17 : BitVec 32 := 256#32
  let v47 : BitVec 32 := Scalar.muli c3_i32 c256_i32_17
  v47
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bitsLt_bf16_f32 : FTy.bits .bf16 < FTy.bits .f32
  shapeCasts_S4x4096x2048_S16384x2048 : S4x4096x2048.ShapeCasts S16384x2048
  shapeCasts_S16384x2048_S4x4096x2048 : S16384x2048.ShapeCasts S4x4096x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  h_S256x64 : 0 < S256x64.numel
  shapeCasts_S256x64_S256x64 : S256x64.ShapeCasts S256x64
  h_S256x2048 : 0 < S256x2048.numel
  shapeCasts_S256x2048_S256x2048 : S256x2048.ShapeCasts S256x2048
  gather_S50257x64_S16384x1_S16384x64_1_0_n_n_0_1_164_wf : GatherDims.WF S50257x64 S16384x1 S16384x64 [1] [0] [] [0] [] 1 ![1, 64]
  dot_S256x64_S64x2048_S256x2048_1_0_0_1_n_n_wf : DotDims.WF S256x64 S64x2048 S256x2048 [1] [0] [0] [1] [] []
  hrank0 : 0 < grid0.rank
  k0_mult1_dvd : 256 ∣ k0_mult1.toNat
  k0_off1_inb : ∀ (r : Fin 4), ∀ a, (k0_off1 (BitVec.ofNat 32 r.val)) a + S256x64.size a ≤ S1024x64.size a
  k0_off2_inb : ∀ (r : Fin 4), ∀ a, (k0_off2 (BitVec.ofNat 32 r.val)) a + S256x2048.size a ≤ S1024x2048.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .bf16 = 32 ∨ (Rect.block (s := S16384x64) S1024x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .bf16 = 32 ∨ (Rect.block (s := S64x2048) S64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def gather_S50257x64_S16384x1_S16384x64_1_0_n_n_0_1_164 : GatherDims S50257x64 S16384x1 S16384x64 where
  offsetDims := [1]
  collapsedSliceDims := [0]
  operandBatchingDims := []
  startIndicesBatchingDims := []
  startIndexMap := [0]
  indexVectorDim := 1
  sliceSizes := ![1, 64]
  wf := gather_S50257x64_S16384x1_S16384x64_1_0_n_n_0_1_164_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf

abbrev win0_0 : Pipeline.Window sig grid0 :=
  Pipeline.Window.ofSpec (Memref.whole main_call0_v2) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 2 3

variable [Facts]
-- ==== ReferenceIdeal.lean ====
abbrev S4x4096 : Shape := ⟨2, ![4, 4096]⟩
abbrev S4x4096x2048 : Shape := ⟨3, ![4, 4096, 2048]⟩
abbrev S50257x64 : Shape := ⟨2, ![50257, 64]⟩
abbrev S64x2048 : Shape := ⟨2, ![64, 2048]⟩
abbrev S_ : Shape := ⟨0, ![]⟩
abbrev S4x4096x1 : Shape := ⟨3, ![4, 4096, 1]⟩
abbrev S4x4096x64 : Shape := ⟨3, ![4, 4096, 64]⟩

abbrev nBuf : Space → Nat
  | .hbm => 26
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S4x4096x2048, .f32⟩
  | .hbm, ⟨2, _⟩ => ⟨S50257x64, .f32⟩
  | .hbm, ⟨3, _⟩ => ⟨S64x2048, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S4x4096x64, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x2048 : S_.BroadcastsInDim S4x4096x2048 (![] : Fin 0 → Fin S4x4096x2048.rank)
  gather_S50257x64_S4x4096x1_S4x4096x64_2_0_n_n_0_2_164_wf : GatherDims.WF S50257x64 S4x4096x1 S4x4096x64 [2] [0] [] [0] [] 2 ![1, 64]
  dot_S4x4096x64_S64x2048_S4x4096x2048_2_0_01_1_n_n_wf : DotDims.WF S4x4096x64 S64x2048 S4x4096x2048 [2] [0] [0, 1] [1] [] []

variable [Facts₀]

def gather_S50257x64_S4x4096x1_S4x4096x64_2_0_n_n_0_2_164 : GatherDims S50257x64 S4x4096x1 S4x4096x64 where
  offsetDims := [2]
  collapsedSliceDims := [0]
  operandBatchingDims := []
  startIndicesBatchingDims := []
  startIndexMap := [0]
  indexVectorDim := 2
  sliceSizes := ![1, 64]
  wf := gather_S50257x64_S4x4096x1_S4x4096x64_2_0_n_n_0_2_164_wf
def dot_S4x4096x64_S64x2048_S4x4096x2048_2_0_01_1_n_n : DotDims S4x4096x64 S64x2048 S4x4096x2048 where
  lhsContracting := [2]
  rhsContracting := [0]
  lhsNonContracting := [0, 1]
  rhsNonContracting := [1]
  lhsBatch := []
  rhsBatch := []
  wf := dot_S4x4096x64_S64x2048_S4x4096x2048_2_0_01_1_n_n_wf

class Facts : Prop extends Facts₀ where

variable [Facts]
-- ==== Proof.Spec.lean ====
/-
  A gated row lookup, as ONE function of the four argument arrays.

  Token (b, s) carries a word a. It names a row of the table T : [50257, 64] the way NumPy reads a row number:
  a negative word counts from the end (a + 50257), and the row is kept inside the table. That row is projected
  through W : [64, 2048], z = Σ_k T[row, k] · W[k, d], and the result at (b, s, d) is x[b, s, d] · (1 + σ(z)),
  with σ(z) = 1 / (1 + e^(−z)) the logistic function. Everything is read on the extended reals; no step below
  needs an entry to be finite, since both programs form the same products and the same sum in the same order
  of operations on each element.
-/
import Idealize.ShloMosaic.PureOps.Ideal
import Idealize.ShloMosaic.PureOps.Ideal.Laws
import Idealize.ShloMosaic.Lib.ValueIdx

noncomputable section

namespace Cert.GatedLookup

open Idealize.ShloMosaic Idealize.ShloMosaic.ValueIdx

/-- The token words [4, 4096], the activations [4, 4096, 2048], the table [50257, 64], the projection [64, 2048]. -/
abbrev Tok : Shape := ⟨2, ![4, 4096]⟩
abbrev Act : Shape := ⟨3, ![4, 4096, 2048]⟩
abbrev Tab : Shape := ⟨2, ![50257, 64]⟩
abbrev Prj : Shape := ⟨2, ![64, 2048]⟩

/-- NumPy's reading of a row number: a negative word counts from the end of the table. -/
def wrapId (a : BitVec 32) : BitVec 32 :=
  Scalar.select (IntOp.cmpi .slt a 0#32) (IntOp.addi a 50257#32) a

/-- The table row a token word names: wrapped, read signed, kept inside the table. -/
def rowOf (a : BitVec 32) : Fin 50257 := ⟨min (wrapId a).toInt.toNat (50257 - 1), by omega⟩

/-- The pattern of the float 1.0 denotes the real number one. -/
theorem one_word : Ideal.ofBits .f32 0x3F800000#32 = 1 := by
  simp [Ideal.ofBits, Ideal.ieee, -EReal.coe_mul]; norm_num

/-- The gate: one plus the logistic function. -/
def gate (z : EReal) : EReal := 1 + Ideal.logistic z

/-- The host's spelling of the gate, 1 + 1 / (1 + e^(−z)) in the host's negate, exponential, sum and quotient,
    is the gate: at the exact values the logistic function IS that expression. -/
theorem gate_host (z : Ideal .f32) :
    FloatOps.addf (F := Ideal) (1 : Ideal .f32)
        (FloatOps.hostDivf (1 : Ideal .f32) (FloatOps.addf 1 (FloatOps.hostUnary .exp (FloatOps.hostNegf z))))
      = gate z := rfl

/-- The kernel's spelling, 1 + logistic z in the vector unit's operations, is the gate. -/
theorem gate_kernel (z : Ideal .f32) :
    FloatOps.addf (F := Ideal) (1 : Ideal .f32) (FloatOps.logistic z) = gate z := rfl

/-- The projected row of token (b, s) at column d. -/
def logit (ids : IVec Tok 32) (T : FVec Ideal Tab .f32) (W : FVec Ideal Prj .f32) (b : Fin 4) (s : Fin 4096)
    (d : Fin 2048) : EReal :=
  ∑ k : Fin 64, T (ix2 (rowOf (ids (ix2 b s))) k) * W (ix2 k d)

/-- THE RESULT: x · (1 + σ(projected row)), element by element. -/
def result (ids : IVec Tok 32) (x : FVec Ideal Act .f32) (T : FVec Ideal Tab .f32) (W : FVec Ideal Prj .f32) :
    Act.Idx → EReal :=
  fun i => x i * gate (logit ids T W (i 0) (i 1) (i 2))

end Cert.GatedLookup

end
-- ==== Proof.TokenRange.lean ====
/-
  What the precondition says of the token words, and what that gives the row lookup.

  The precondition's last conjunct is an all-reduce of (a ≥ −50257) ∧ (a < 50257) over the token words a. Read
  back, every word lies in [−50257, 50257) as a signed number. For such a word the wrapped word (a + 50257
  when a is negative, else a) lies in [0, 50256]: it names a row of the table as it stands, so the lookup's
  bounds test passes and clamping the row changes nothing.
-/
import proofs.«419317_j69123203662023_3_alg».proof.Pre_finite_inputs
import proofs.«419317_j69123203662023_3_alg».proof.Proof.Spec
import Idealize.ShloMosaic.Lib.ReduceAll

noncomputable section

namespace Cert.GatedLookup

open Idealize.ShloMosaic Idealize.ShloMosaic.ValueIdx

/-- A scalar has one index. -/
instance scalarIdxSubsingleton : Subsingleton (⟨0, ![]⟩ : Shape).Idx := ⟨fun a b => funext fun d => d.elim0⟩

/-- A word in [−50257, 50257), wrapped the way NumPy reads a row number, lies in [0, 50256]. -/
theorem wrapId_inside (a : BitVec 32) (h1 : (-50257 : ℤ) ≤ a.toInt) (h2 : a.toInt < 50257) :
    0 ≤ (wrapId a).toInt ∧ (wrapId a).toInt ≤ 50256 := by
  unfold wrapId Scalar.select
  by_cases hneg : IntOp.cmpi .slt a 0#32 = 1
  · rw [if_pos hneg]
    have hlt : a.toInt < 0 := by
      have := IntOp.cmpi_slt.1 hneg
      rwa [show (0#32 : BitVec 32).toInt = 0 from by decide] at this
    have hadd : (IntOp.addi a 50257#32).toInt = a.toInt + 50257 := by
      unfold IntOp.addi
      rw [BitVec.toInt_add, show (50257#32 : BitVec 32).toInt = 50257 from by decide]
      exact Int.bmod_eq_of_le (by omega) (by omega)
    rw [hadd]; omega
  · rw [if_neg hneg]
    have hge : ¬ a.toInt < 0 := by
      intro hlt
      apply hneg
      apply IntOp.cmpi_slt.2
      rwa [show (0#32 : BitVec 32).toInt = 0 from by decide]
    omega

/-- So the row it names is the wrapped word itself. -/
theorem rowOf_val (a : BitVec 32) (h1 : (-50257 : ℤ) ≤ a.toInt) (h2 : a.toInt < 50257) :
    ((rowOf a).val : ℤ) = (wrapId a).toInt := by
  obtain ⟨h0, h50⟩ := wrapId_inside a h1 h2
  show ((min (wrapId a).toInt.toNat (50257 - 1) : ℕ) : ℤ) = _
  omega

/-- And the lookup's bounds test on the wrapped word, 0 ≤ · ≤ 50256, passes. -/
theorem wrapId_bounds (a : BitVec 32) (h1 : (-50257 : ℤ) ≤ a.toInt) (h2 : a.toInt < 50257) :
    IntOp.andi (IntOp.cmpi .sge (wrapId a) 0#32) (IntOp.cmpi .sle (wrapId a) 50256#32) = 1#1 := by
  obtain ⟨h0, h50⟩ := wrapId_inside a h1 h2
  refine IntOp.andi_eq_one.2 ⟨IntOp.cmpi_sge.2 ?_, IntOp.cmpi_sle.2 ?_⟩
  · rwa [show (0#32 : BitVec 32).toInt = 0 from by decide]
  · rwa [show (50256#32 : BitVec 32).toInt = 50256 from by decide]

variable [Cert.Pre_finite_inputs.Facts]

/-- THE PRECONDITION READ BACK at the token words: each lies in [−50257, 50257). -/
theorem tokens_in_range {F : FTy → Type} [FloatOps F] (a0 : IVec Tok 32) (a1 : FVec F Act .f32) (a2 : FVec F Tab .f32)
    (a3 : FVec F Prj .f32) (h : Cert.Pre_finite_inputs.fn (F := F) a0 a1 a2 a3 = fun _ => 1#1) (i : Tok.Idx) :
    (-50257 : ℤ) ≤ (a0 i).toInt ∧ (a0 i).toInt < 50257 := by
  have h0 := congrFun h ix0
  unfold Cert.Pre_finite_inputs.fn Cert.Pre_finite_inputs.fn_part1 at h0
  dsimp only at h0
  have hall := (IntOp.andi_eq_one.1 h0).2
  have hi := Host.reduce_andi_all _ _ _ _ _ hall i
  obtain ⟨hge, hlt⟩ := IntOp.andi_eq_one.1 hi
  have hge' := IntOp.cmpi_sge.1 hge
  have hlt' := IntOp.cmpi_slt.1 hlt
  refine ⟨?_, ?_⟩
  · have e : (4294917039#32 : BitVec 32).toInt = -50257 := by decide
    exact e ▸ hge'
  · have e : (50257#32 : BitVec 32).toInt = 50257 := by decide
    exact e ▸ hlt'

end Cert.GatedLookup

end
-- ==== Proof.LibGatherRows.lean ====
/-
  A row lookup read at an index.

  What `x[idx]` of a table `x : [N, K]` at an integer array `idx : [R, C]` lowers to is a `stablehlo.gather` of
  the table at the start indices `[R, C, 1]` (one index vector of length one per position) with offset axis 2,
  collapsed axis 0, start index map `[0]`, index vector axis 2 and slices `[1, K]`: result element `(p, q, j)`
  is column `j` of the row whose number is the start index `idx[p, q, 0]` read as a signed integer and clamped
  into `[0, N − 1]`.
-/
import Idealize.ShloMosaic.Lib.ValueIdx

noncomputable section

namespace Cert.PosEnc.GatherRows

open Idealize.ShloMosaic Idealize.ShloMosaic.ValueIdx

variable {α : Type}

/-- Those dimension numbers for a table `[N, K]`, start indices `[R, C, 1]` and result `[R, C, K]`; their
    conditions `wf` are decided on a program's literal shapes. -/
abbrev rowsDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE ROW LOOKUP READ AT `(p, q, j)`: the table at column `j` of the row the start index `idx[p, q, 0]` names,
    read signed and clamped into `[0, N − 1]`. On the row axis the operand coordinate is the clamped start alone
    (the axis is collapsed, so it has no offset, and there are no batching axes); on the column axis the start
    is `0` (the start index map does not name it) and the offset is the result's coordinate on its one offset
    axis. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (p : Fin R) (q : Fin C) (j : Fin K) :
    Host.gather (rowsDims N K R C wf) x idx (ix3 p q j)
      = x (ix2 ⟨min (idx (ix3 p q (0 : Fin 1))).toInt.toNat (N - 1), by omega⟩ j) := by
  unfold Host.gather
  congr 1
  funext a
  refine Fin.ext ?_
  match a with
  | ⟨0, _⟩ =>
    show (rowsDims N K R C wf).start (ix3 p q j) idx 0 + (rowsDims N K R C wf).batchCoord (ix3 p q j) 0
        + (rowsDims N K R C wf).offCoord (ix3 p q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R C wf).startIndexMap from List.mem_singleton.mpr rfl)]
    have hsi : (rowsDims N K R C wf).siIdx (ix3 p q j) ⟨List.idxOf (0 : Fin 2) (rowsDims N K R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N K R C wf).start (ix3 p q j) idx 1 + (rowsDims N K R C wf).batchCoord (ix3 p q j) 1
        + (rowsDims N K R C wf).offCoord (ix3 p q j) 1 = j.val
    have hk : (1 : Fin 2) ∈ (rowsDims N K R C wf).sKept := by
      rw [GatherDims.mem_sKept]; exact ⟨(by decide : (1 : Fin 2) ∉ [(0 : Fin 2)]), List.not_mem_nil⟩
    rw [GatherDims.batchCoord_eq_zero _ _ _ List.not_mem_nil]
    unfold GatherDims.start GatherDims.offCoord
    rw [dif_neg (show (1 : Fin 2) ∉ (rowsDims N K R C wf).startIndexMap from (by decide : (1 : Fin 2) ∉ [(0 : Fin 2)])), dif_pos hk]
    simp only [Nat.add_zero, Nat.zero_add]
    rfl

end Cert.PosEnc.GatherRows

end
-- ==== Proof.RefValue.lean ====
/-
  The reference computes the gated row lookup.

  Its stages, read at an index (b, s, d): the token word is wrapped (negative words count from the end), the
  row lookup reads the table at the wrapped word read signed and kept inside the table — which is the row the
  specification names —, the contraction over the 64 columns is the projected row, and the host's
  1 + 1 / (1 + e^(−z)) is the gate. No hypothesis on the arguments is used.
-/
import proofs.«419317_j69123203662023_3_alg».proof.Proof.Gen.ReferenceIdeal.Read
import proofs.«419317_j69123203662023_3_alg».proof.Proof.Spec
import proofs.«419317_j69123203662023_3_alg».proof.Proof.LibGatherRows

noncomputable section

namespace Cert.GatedLookup.Reference

open Idealize.ShloMosaic Idealize.ShloMosaic.ValueIdx Cert.ReferenceIdeal Cert.ReferenceIdeal.Read Cert.GatedLookup

/-- The conditions on a row lookup's dimension numbers, at these shapes. -/
theorem lookup_wf : GatherDims.WF ⟨2, ![50257, 64]⟩ ⟨3, ![4, 4096, 1]⟩ ⟨3, ![4, 4096, 64]⟩ [2] [0] [] [0] [] 2 ![1, 64] := by
  decide

/-- The printed lookup's dimension numbers are those of a row lookup at start indices [4, 4096, 1]. -/
theorem gather_dims : gather_S50257x64_S4x4096x1_S4x4096x64_2_0_n_n_0_2_164
    = Cert.PosEnc.GatherRows.rowsDims 50257 64 4 4096 lookup_wf := rfl

/-- The start word of token (b, s) is its wrapped word. -/
theorem start_word (x0 : IVec Tok 32) (b : Fin 4) (s : Fin 4096) :
    val_main_v5 (F := Ideal) x0 (ix3 b s (0 : Fin 1)) = wrapId (x0 (ix2 b s)) := by
  rw [val_main_v5_apply]
  have e : idx_main_v5 (ix3 b s (0 : Fin 1)) = ix2 b s :=
    funext fun a => Fin.ext (by match a with | ⟨0, _⟩ => rfl | ⟨1, _⟩ => rfl)
  rw [e, val_main_v4_apply, val_main_v1_apply, val_main_v3_apply, val_main_v0_apply, val_main_c_apply,
    val_main_v2_apply, val_main_c_0_apply]
  rfl

/-- The looked-up row of token (b, s) at column k is the table at the row the specification names. -/
theorem lookup_apply (x0 : IVec Tok 32) (x2 : FVec Ideal Tab .f32) (b : Fin 4) (s : Fin 4096) (k : Fin 64) :
    val_main_v6 (F := Ideal) x0 x2 (ix3 b s k) = x2 (ix2 (rowOf (x0 (ix2 b s))) k) := by
  unfold val_main_v6
  rw [gather_dims, Cert.PosEnc.GatherRows.gather_rows_apply (by decide)]
  refine congrArg (fun r : Fin 50257 => x2 (ix2 r k)) (Fin.ext ?_)
  show min (val_main_v5 (F := Ideal) x0 (ix3 b s (0 : Fin 1))).toInt.toNat (50257 - 1)
    = min (wrapId (x0 (ix2 b s))).toInt.toNat (50257 - 1)
  rw [start_word]

/-- THE REFERENCE'S RESULT is the specification's. -/
theorem result_eq (x0 : IVec Tok 32) (x1 : FVec Ideal Act .f32) (x2 : FVec Ideal Tab .f32) (x3 : FVec Ideal Prj .f32) :
    val_main_v16 (F := Ideal) x0 x1 x2 x3 = result x0 x1 x2 x3 := by
  funext i
  obtain ⟨b, s, d, rfl⟩ : ∃ (b : Fin 4) (s : Fin 4096) (d : Fin 2048), i = ix3 b s d := ⟨i 0, i 1, i 2, eq_ix3 i⟩
  have el : ∀ k : Fin 64, lidx_main_v7 (ix3 b s d) k = ix3 b s k := fun k =>
    funext fun a => Fin.ext (by match a with | ⟨0, _⟩ => rfl | ⟨1, _⟩ => rfl | ⟨2, _⟩ => rfl)
  have er : ∀ k : Fin 64, ridx_main_v7 (ix3 b s d) k = ix2 k d := fun k =>
    funext fun a => Fin.ext (by match a with | ⟨0, _⟩ => rfl | ⟨1, _⟩ => rfl)
  rw [val_main_v16_apply, val_main_v15_apply, val_main_v14_apply, val_main_cst_2_apply, val_main_v13_apply,
    val_main_v12_apply, val_main_cst_1_apply, val_main_v11_apply, val_main_v10_apply, val_main_cst_apply,
    val_main_v9_apply, val_main_v8_apply, val_main_v7_apply]
  simp only [el, er, lookup_apply]
  show x1 (ix3 b s d) * (Ideal.ofBits .f32 0x3F800000#32 + Ideal.div (Ideal.ofBits .f32 0x3F800000#32)
      (Ideal.ofBits .f32 0x3F800000#32 + Ideal.exp (-(∑ k : Fin 64, x2 (ix2 (rowOf (x0 (ix2 b s))) k) * x3 (ix2 k d))))) = _
  rw [one_word]
  rfl

end Cert.GatedLookup.Reference

end
-- ==== Proof.Chunk.lean ====
/-
  One chunk of the body, read at an index.

  The body handles its 1024-row block in four chunks of 256 rows. A chunk multiplies its 256 embedding rows
  e : [256, 64] by the resident projection w : [64, 2048] into a zero accumulator — at the exact values the
  plain sum Σ_k e[p, k] · w[k, q] —, applies the logistic function, adds one, and scales the chunk of
  activations: out[p, q] = x[p, q] · (1 + σ(Σ_k e[p, k] · w[k, q])). The four stored values are this one
  expression; a shape cast to the same shape is the identity.
-/
import proofs.«419317_j69123203662023_3_alg».proof.Proof.Gen.KernelIdeal.Skeleton
import proofs.«419317_j69123203662023_3_alg».proof.Proof.Spec
import Idealize.ShloMosaic.Lib.Pipeline.Value
import Idealize.ShloMosaic.Lib.ValueIdx
import Idealize.ShloMosaic.PureOps.Ideal.Laws

noncomputable section

namespace Cert.GatedLookup.Kernel

open Idealize.ShloMosaic Idealize.ShloMosaic.ValueIdx Cert.KernelIdeal Cert.KernelIdeal.Gen Cert.GatedLookup

/-! ## The chunk's contraction: which operand entries meet at output (p, q) and contraction index k -/

theorem lhs_chunk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_chunk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_chunk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_chunk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The chunk's product into a zero accumulator, at (p, q): the sum over the 64 columns of the embedding row. -/
theorem chunk_matmul (e : FVec Ideal S256x64 .bf16) (w : FVec Ideal S64x2048 .bf16) (p : Fin 256) (q : Fin 2048) :
    matmul dot_S256x64_S64x2048_S256x2048_1_0_0_1_n_n none e w (constant S256x2048 .f32 0x00000000#32) (ix2 p q)
      = ∑ k : Fin 64, e (ix2 p k) * w (ix2 k q) := by
  show FloatOps.matmul dot_S256x64_S64x2048_S256x2048_1_0_0_1_n_n none e w (constant S256x2048 .f32 0x00000000#32) (ix2 p q) = _
  rw [Ideal.matmul_constant_zero_apply, ← Equiv.sum_comp (contrEquiv1 dot_S256x64_S64x2048_S256x2048_1_0_0_1_n_n 64 rfl rfl).symm]
  refine Finset.sum_congr rfl fun k _ => ?_
  have hk := contrEquiv1_symm_val dot_S256x64_S64x2048_S256x2048_1_0_0_1_n_n 64 rfl rfl k
  have el : dot_S256x64_S64x2048_S256x2048_1_0_0_1_n_n.lhsIdx (ix2 p q) ((contrEquiv1 dot_S256x64_S64x2048_S256x2048_1_0_0_1_n_n 64 rfl rfl).symm k) = ix2 p k := funext fun a => Fin.ext (by
    match a with
    | ⟨0, _⟩ => exact lhs_chunk_0 _ _
    | ⟨1, _⟩ => exact (lhs_chunk_1 _ _).trans hk)
  have er : dot_S256x64_S64x2048_S256x2048_1_0_0_1_n_n.rhsIdx (ix2 p q) ((contrEquiv1 dot_S256x64_S64x2048_S256x2048_1_0_0_1_n_n 64 rfl rfl).symm k) = ix2 k q := funext fun a => Fin.ext (by
    match a with
    | ⟨0, _⟩ => exact (rhs_chunk_0 _ _).trans hk
    | ⟨1, _⟩ => exact rhs_chunk_1 _ _)
  rw [el, er]

/-! ## The stored values -/

/-- A chunk's value, as a function of its embedding rows, the projection and its activations. -/
def chunkFn (e : Vec Ideal S256x64 .bf16) (w : Vec Ideal S64x2048 .bf16) (xc : Vec Ideal S256x2048 .f32) :
    Vec Ideal S256x2048 .f32 :=
  fun y => xc y * gate (∑ k : Fin 64, e (ix2 (y 0) k) * w (ix2 k (y 1)))

/-- The expression every chunk stores, at (p, q). -/
theorem gated_apply (e : FVec Ideal S256x64 .bf16) (w : FVec Ideal S64x2048 .bf16) (xc : FVec Ideal S256x2048 .f32)
    (p : Fin 256) (q : Fin 2048) :
    mulf xc (addf (broadcast S256x2048 (Scalar.ofBits (F := Ideal) .f32 0x3F800000#32))
        (logistic (matmul dot_S256x64_S64x2048_S256x2048_1_0_0_1_n_n none e w (constant S256x2048 .f32 0x00000000#32)))) (ix2 p q)
      = chunkFn e w xc (ix2 p q) := by
  show xc (ix2 p q) * (Ideal.ofBits .f32 0x3F800000#32
      + Ideal.logistic (matmul dot_S256x64_S64x2048_S256x2048_1_0_0_1_n_n none e w (constant S256x2048 .f32 0x00000000#32) (ix2 p q))) = _
  rw [chunk_matmul, one_word]
  rfl

/-- The resident projection's and an embedding chunk's shape casts are identities. -/
theorem pay3_eq (w : Vec Ideal S64x2048 .bf16) : k0_pay3 (F := Ideal) w = w := shapeCast_self _ _
theorem pay6_eq (e : Vec Ideal S256x64 .bf16) : k0_pay6 (F := Ideal) e = e := shapeCast_self _ _

/-- Chunk 0's stored value. -/
theorem pay4_eq (w : Vec Ideal S64x2048 .bf16) (e : Vec Ideal S256x64 .bf16) (xc : Vec Ideal S256x2048 .f32) :
    k0_pay4 (F := Ideal) w e xc = chunkFn e w xc := by
  funext y
  obtain ⟨p, q, rfl⟩ : ∃ (p : Fin 256) (q : Fin 2048), y = ix2 p q := ⟨y 0, y 1, eq_ix2 y⟩
  unfold k0_pay4
  simp only [pay3_eq, shapeCast_self]
  exact gated_apply e w xc p q

/-- Chunk 1's. -/
theorem pay5_eq (w : Vec Ideal S64x2048 .bf16) (e : Vec Ideal S256x64 .bf16) (xc : Vec Ideal S256x2048 .f32) :
    k0_pay5 (F := Ideal) w e xc = chunkFn e w xc := by
  funext y
  obtain ⟨p, q, rfl⟩ : ∃ (p : Fin 256) (q : Fin 2048), y = ix2 p q := ⟨y 0, y 1, eq_ix2 y⟩
  unfold k0_pay5
  simp only [pay3_eq, shapeCast_self]
  exact gated_apply e w xc p q

/-- Chunk 2's (its product's accumulator is the zero splat the run passes it). -/
theorem pay1_eq (w : FVec Ideal S64x2048 .bf16) (e : FVec Ideal S256x64 .bf16) (xc : Vec Ideal S256x2048 .f32) :
    k0_pay1 (F := Ideal) w e (constant S256x2048 .f32 0x00000000#32) xc = chunkFn e w xc := by
  funext y
  obtain ⟨p, q, rfl⟩ : ∃ (p : Fin 256) (q : Fin 2048), y = ix2 p q := ⟨y 0, y 1, eq_ix2 y⟩
  unfold k0_pay1
  simp only [shapeCast_self]
  exact gated_apply e w xc p q

/-- Chunk 3's. -/
theorem pay2_eq (w : FVec Ideal S64x2048 .bf16) (e : Vec Ideal S256x64 .bf16) (xc : Vec Ideal S256x2048 .f32) :
    k0_pay2 (F := Ideal) w e xc = chunkFn e w xc := by
  funext y
  obtain ⟨p, q, rfl⟩ : ∃ (p : Fin 256) (q : Fin 2048), y = ix2 p q := ⟨y 0, y 1, eq_ix2 y⟩
  unfold k0_pay2
  simp only [shapeCast_self]
  exact gated_apply e w xc p q

end Cert.GatedLookup.Kernel

end
-- ==== Proof.Block.lean ====
/-
  What the body leaves in its output block.

  The body's four stores tile the [1024, 2048] block by rows: chunk j fills rows 256·j … 256·j + 255 with the
  chunk expression of rows 256·j … of the embedding block, the whole projection and rows 256·j … of the
  activation block. Row p of chunk j is row 256·j + p of the block, so all four stored values are restrictions
  of ONE function of the block index: out[y] = x[y] · (1 + σ(Σ_k e[y₀, k] · w[k, y₁])).
-/
import proofs.«419317_j69123203662023_3_alg».proof.Proof.Gen.KernelIdeal.Frame
import proofs.«419317_j69123203662023_3_alg».proof.Proof.Chunk

set_option maxRecDepth 16384

noncomputable section

namespace Cert.GatedLookup.Kernel

open Idealize.ShloMosaic Idealize.ShloMosaic.TcCoe Idealize.ShloMosaic.Tactic Idealize.ShloMosaic.ValueIdx
open Idealize.SL Idealize.SL.Sem
open Cert.KernelIdeal Cert.KernelIdeal.Gen Cert.GatedLookup

/-- The block the body leaves, as a function of the embedding block, the projection and the activation block. -/
def blockFn (e : Vec Ideal S1024x64 .bf16) (w : Vec Ideal S64x2048 .bf16) (xb : Vec Ideal S1024x2048 .f32) :
    Vec Ideal S1024x2048 .f32 :=
  fun y => xb y * gate (∑ k : Fin 64, e (ix2 (y 0) k) * w (ix2 k (y 1)))

/-- The chunk at rows r … r + 255, at its own index (p, q), is the block's function at row r + p. -/
theorem chunk_in_block (r : Nat)
    (inbO : ∀ a, (![r, 0] : Fin 2 → Nat) a + (![256, 2048] : Fin 2 → Nat) a ≤ S1024x2048.size a)
    (inbE : ∀ a, (![r, 0] : Fin 2 → Nat) a + (![256, 64] : Fin 2 → Nat) a ≤ S1024x64.size a)
    (inbW : ∀ a, (![0, 0] : Fin 2 → Nat) a + (![64, 2048] : Fin 2 → Nat) a ≤ S64x2048.size a)
    (x0 : Vec Ideal S1024x64 .bf16) (x1 : Vec Ideal S64x2048 .bf16) (x2 : Vec Ideal S1024x2048 .f32)
    (p : Fin 256) (q : Fin 2048) :
    chunkFn (View.ld x0 (Rect.unit (s := S1024x64) ![r, 0] ![256, 64] inbE))
        (View.ld x1 (Rect.unit (s := S64x2048) ![0, 0] ![64, 2048] inbW))
        (View.ld x2 (Rect.unit (s := S1024x2048) ![r, 0] ![256, 2048] inbO)) (ix2 p q)
      = blockFn x0 x1 x2 ((Rect.unit (s := S1024x2048) ![r, 0] ![256, 2048] inbO).emb (ix2 p q)) := by
  have he : ∀ k : Fin 64, (Rect.unit (s := S1024x64) ![r, 0] ![256, 64] inbE).idx (ix2 p k)
      = ix2 ((Rect.unit (s := S1024x2048) ![r, 0] ![256, 2048] inbO).emb (ix2 p q) 0) k := fun k =>
    funext fun a => Fin.ext (by
      match a with
      | ⟨0, _⟩ => rfl
      | ⟨1, _⟩ => show 0 + 1 * k.val = k.val; omega)
  have hw : ∀ k : Fin 64, (Rect.unit (s := S64x2048) ![0, 0] ![64, 2048] inbW).idx (ix2 k q)
      = ix2 k ((Rect.unit (s := S1024x2048) ![r, 0] ![256, 2048] inbO).emb (ix2 p q) 1) := fun k =>
    funext fun a => Fin.ext (by
      match a with
      | ⟨0, _⟩ => show 0 + 1 * k.val = k.val; omega
      | ⟨1, _⟩ => rfl)
  show x2 ((Rect.unit (s := S1024x2048) ![r, 0] ![256, 2048] inbO).idx (ix2 p q))
      * gate (∑ k : Fin 64, x0 ((Rect.unit (s := S1024x64) ![r, 0] ![256, 64] inbE).idx (ix2 p k))
        * x1 ((Rect.unit (s := S64x2048) ![0, 0] ![64, 2048] inbW).idx (ix2 k q))) = _
  simp only [he, hw]
  rfl

/-- THE BLOCK: what the run leaves in the output's staging buffer is that one function of the input blocks. -/
theorem block_eq (c : Dev nD) (i : grid0.Coords) (arg1 : Memref sig .tc .vmem S1024x64 .bf16) (harg1 : arg1.IsWhole)
    (arg2 : Memref sig .tc .vmem S64x2048 .bf16) (harg2 : arg2.IsWhole) (arg3 : Memref sig .tc .vmem S1024x2048 .f32)
    (harg3 : arg3.IsWhole) (arg4 : Memref sig .tc .vmem S1024x2048 .f32) (harg4 : arg4.IsWhole)
    (x0 : Vec Ideal S1024x64 .bf16) (x1 : Vec Ideal S64x2048 .bf16) (x2 : Vec Ideal S1024x2048 .f32) :
    out0_A_3 (F := Ideal) c i arg1 harg1 arg2 harg2 arg3 harg3 arg4 harg4 x0 x1 x2 = blockFn x0 x1 x2 := by
  unfold out0_A_3
  rw [View.read_writes_junk_eq_canon]
  funext y
  refine View.canon_apply_of_pieces (blockFn x0 x1 x2) _ ?_ y
    (cover0_A_3 c i arg1 harg1 arg2 harg2 arg3 harg3 arg4 harg4 x0 x1 x2 y)
  unfold kernelRun0_A
  dsimp only
  sl_unfold_words
  intro pc hpc
  simp only [List.mem_cons, List.mem_nil_iff, or_false] at hpc
  rcases hpc with rfl | rfl | rfl | rfl
  all_goals
    intro x
    obtain ⟨p, q, rfl⟩ : ∃ (p : Fin 256) (q : Fin 2048), x = ix2 p q := ⟨x 0, x 1, eq_ix2 x⟩
    dsimp only
    simp only [View.readAt_eq_ld, harg1.read_unread, harg2.read_unread, harg3.read_unread, pay3_eq, pay6_eq,
      pay1_eq, pay2_eq, pay4_eq, pay5_eq]
    exact chunk_in_block _ _ _ _ x0 x1 x2 p q

end Cert.GatedLookup.Kernel

end
-- ==== Proof.KernelArray.lean ====
/-
  From the blocks to the whole output array.

  Grid point t stages rows 1024·t … 1024·t + 1023 of the embedding array and of the activation array, and the
  whole projection; it writes back rows 1024·t … of the output array. What it writes back is the block function
  of what it staged, which is the block of ONE function of the three staged arrays:
  out[r, d] = X[r, d] · (1 + σ(Σ_k E[r, k] · Wb[k, d])). The sixteen blocks tile the 16384 rows, so after the
  run the output array holds that function everywhere.
-/
import proofs.«419317_j69123203662023_3_alg».proof.Proof.Block

set_option maxRecDepth 16384

noncomputable section

namespace Cert.GatedLookup.Kernel

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.GatedLookup

/-- The flat result as a function of the embedding array, the projection array and the activation array. -/
def flatFn (E : S16384x64.Idx → EReal) (Wb : S64x2048.Idx → EReal) (X : S16384x2048.Idx → EReal) :
    S16384x2048.Idx → EReal :=
  fun i => X i * gate (∑ k : Fin 64, E (ix2 (i 0) k) * Wb (ix2 k (i 1)))

variable (m : (ℓ : Loc nD τ sig) → Buf (Elt Ideal) ℓ)

/-- The three staged arrays as the region finds them, at their literal types. -/
abbrev embArr (c : Dev nD) : S16384x64.Idx → EReal := V m c main_call0_v2
abbrev prjArr (c : Dev nD) : S64x2048.Idx → EReal := V m c main_call0_v3
abbrev actArr (c : Dev nD) : S16384x2048.Idx → EReal := V m c main_call0_v4

/-- The printed index maps over the grid: the embedding and activation windows move with the output window along
    the rows, the projection window stays, and the output window's block row is the grid point. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) = t.val :=
  (by decide +kernel : ∀ t : Fin grid0.N, _)

/-- WHAT POINT t WRITES BACK is block t of the flat function of the staged arrays. -/
theorem flushed_eq (c : Dev nD) (t : Fin cfg0.N) :
    (dats m 0 c).flushed 3 t
      = ((cfg0.win 3).blk t).view.read (Elt Ideal) (flatFn (embArr m c) (prjArr m c) (actArr m c)) := by
  show (cfg0.win 3).cut (grid0.coords t) ((dats m 0 c).after 3 t) = _
  rw [after0_3]
  unfold outsAt0
  rw [block_eq c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨e0, e1, e2, e3, e4, e5, e6, e7⟩ := idx_facts t
  funext j
  obtain ⟨p, q, rfl⟩ : ∃ (p : Fin 1024) (q : Fin 2048), j = ix2 p q := ⟨j 0, j 1, eq_ix2 j⟩
  show actArr m c (((cfg0.win 2).blk t).view.emb (ix2 p q))
      * gate (∑ k : Fin 64, embArr m c (((cfg0.win 0).blk t).view.emb (ix2 p k))
        * prjArr m c (((cfg0.win 1).blk t).view.emb (ix2 k q)))
    = flatFn (embArr m c) (prjArr m c) (actArr m c) (((cfg0.win 3).blk t).view.emb (ix2 p q))
  have h0 : ∀ k : Fin 64, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 64 + 1 * k.val = k.val; omega
  have h1 : ∀ k : Fin 64, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 64 + 1 * k.val = k.val; omega
    | ⟨1, _⟩ => show win0_1.index t (1 : Fin 2) * 2048 + 1 * q.val = win0_3.index t (1 : Fin 2) * 2048 + 1 * q.val; omega
  have h2 : ((cfg0.win 2).blk t).view.emb (ix2 p q) = ((cfg0.win 3).blk t).view.emb (ix2 p q) := by
    funext a; apply Fin.ext
    match a with
    | ⟨0, _⟩ => show win0_2.index t (0 : Fin 2) * 1024 + 1 * p.val = win0_3.index t (0 : Fin 2) * 1024 + 1 * p.val; omega
    | ⟨1, _⟩ => show win0_2.index t (1 : Fin 2) * 2048 + 1 * q.val = win0_3.index t (1 : Fin 2) * 2048 + 1 * q.val; omega
  simp only [h0, h1, h2]
  rfl

/-- An index of the output array is in point t's block iff each coordinate is in the block's range. -/
theorem mem_blk (t : Fin cfg0.N) (i : S16384x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_call0_v5).slice (win0_3.rect t)).set ↔ _
  rw [View.set_slice_whole, Rect.mem_set_unit]
  exact Iff.rfl

/-- THE COVER: row r of the output array is written back by grid point r / 1024. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : (i 0).val / 1024 < cfg0.N := by show _ < grid0.N; rw [N_0]; omega
  obtain ⟨-, -, -, -, -, -, e6, e7⟩ := idx_facts ⟨(i 0).val / 1024, hN⟩
  refine ⟨⟨(i 0).val / 1024, hN⟩, flush0_3 _, ?_⟩
  rw [mem_blk]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    rw [e7]; show (i 0).val / 1024 * 1024 ≤ (i 0).val ∧ (i 0).val < (i 0).val / 1024 * 1024 + 1024; omega
  | ⟨1, _⟩ =>
    show win0_3.index ⟨(i 0).val / 1024, hN⟩ (1 : Fin 2) * 2048 ≤ (i 1).val
      ∧ (i 1).val < win0_3.index ⟨(i 0).val / 1024, hN⟩ (1 : Fin 2) * 2048 + 2048
    rw [e6]; omega

/-- THE OUTPUT ARRAY after the run: the flat function of the staged arrays. -/
theorem final (c : Dev nD) :
    (dats m 0 c).arrAt 3 cfg0.N = flatFn (embArr m c) (prjArr m c) (actArr m c) :=
  (dats m 0 c).arrAt_eq_of_cover 3 _ (fun t _ => flushed_eq m c t) cover

end Cert.GatedLookup.Kernel

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.HostPrefix.lean ====
/-
  The host lines before the call, as functions of the arguments.

  Before the kernel is launched the program flattens the token words [4, 4096] to [16384], wraps the negative
  ones (a + 50257), looks the rows up in the table with a bounds test on the wrapped word (0 ≤ · ≤ 50256; a row
  that fails it is filled with a not-a-number pattern), narrows the looked-up rows and the projection to bf16 —
  the identity on the exact values —, and flattens the activations [4, 4096, 2048] to [16384, 2048]. Flat row
  r = 4096·b + s is token (b, s). Where every token word lies in [−50257, 50257) the bounds test passes in every
  row, so row r of the embedding array is the table row the specification names for token (b, s).
-/
import proofs.«419317_j69123203662023_3_alg».proof.Proof.Gen.KernelIdeal.Frame
import proofs.«419317_j69123203662023_3_alg».proof.Proof.Spec
import proofs.«419317_j69123203662023_3_alg».proof.Proof.TokenRange
import proofs.«419317_j69123203662023_3_alg».proof.Proof.LibIndexed
import proofs.«419317_j69123203662023_3_alg».proof.Proof.LibReduceAnd
import Idealize.ShloMosaic.Lib.StableHlo.Run
import Idealize.ShloMosaic.Lib.Pipeline.Value

set_option maxRecDepth 16384

noncomputable section

namespace Cert.GatedLookup.Kernel

open Idealize.ShloMosaic Idealize.ShloMosaic.TcCoe Idealize.ShloMosaic.Tactic Idealize.ShloMosaic.ValueIdx
open Idealize.ShloMosaic.StableHlo
open Idealize.SL Idealize.SL.Sem
open Cert.KernelIdeal Cert.KernelIdeal.Gen Cert.GatedLookup

/-! ## The staged arrays -/

/-- The token words flattened. -/
def flatIds (ids : IVec S4x4096 32) : IVec S16384 32 := shapeCast S16384 ids Facts₀.shapeCasts_S4x4096_S16384

/-- Each flattened word wrapped: a + 50257 where a is negative. -/
def wrappedIds (ids : IVec S4x4096 32) : IVec S16384 32 :=
  select (cmpi .slt (flatIds ids) (broadcastInDim S16384 ![] Facts₀.bcast_S_S16384 (constantI S_ 32 0#32)))
    (addi (flatIds ids) (broadcastInDim S16384 ![] Facts₀.bcast_S_S16384 (constantI S_ 32 50257#32))) (flatIds ids)

/-- The wrapped words as the lookup's column of start indices. -/
def startCol (ids : IVec S4x4096 32) : IVec S16384x1 32 :=
  broadcastInDim S16384x1 ![0] Facts₀.bcast_S16384_S16384x1_0 (wrappedIds ids)

/-- The lookup's bounds test, row by row: 0 ≤ start ≤ 50256. -/
def inTable (ids : IVec S4x4096 32) : IVec S16384 1 :=
  Host.reduce IntOp.andi
    (andi (cmpi .sge (startCol ids) (broadcastInDim S16384x1 ![] Facts₀.bcast_S_S16384x1 (constantI S_ 32 0#32)))
      (cmpi .sle (startCol ids) (broadcastInDim S16384x1 ![0, 1] Facts₀.bcast_S1x1_S16384x1_0_1
        (broadcastInDim S1x1 ![1] Facts₀.bcast_S1_S1x1_1 (constantI S1 32 50256#32)))))
    (constantI S_ 1 1#1) Facts₀.reducesTo_S16384x1_S16384_d1 Facts₀.h_S_

/-- The embedding rows the kernel is given: the looked-up rows where the test passes, the fill elsewhere. -/
def embRows (ids : IVec S4x4096 32) (tab : FVec Ideal S50257x64 .f32) : FVec Ideal S16384x64 .bf16 :=
  truncf .bf16 (select (broadcastInDim S16384x64 ![0] Facts₀.bcast_S16384_S16384x64_0 (inTable ids))
    (Host.gather gather_S50257x64_S16384x1_S16384x64_1_0_n_n_0_1_164 tab (startCol ids))
    (broadcastInDim S16384x64 ![] Facts₀.bcast_S_S16384x64 (constant S_ .f32 0x7FC00000#32))) Facts₀.bitsLt_bf16_f32

/-- The projection the kernel is given. -/
def prjRows (w : FVec Ideal S64x2048 .f32) : FVec Ideal S64x2048 .bf16 := truncf .bf16 w Facts₀.bitsLt_bf16_f32

/-- The activations flattened. -/
def flatAct (x : FVec Ideal S4x4096x2048 .f32) : FVec Ideal S16384x2048 .f32 :=
  shapeCast S16384x2048 x Facts₀.shapeCasts_S4x4096x2048_S16384x2048

variable (m : (ℓ : Loc nD τ sig) → Buf (Elt Ideal) ℓ)

set_option maxHeartbeats 4000000 in
set_option maxRecDepth 131072 in
/-- The embedding array as the region finds it. -/
theorem V_emb (c : Dev nD) : (V m c main_call0_v2 : S16384x64.Idx → EReal)
    = embRows (m ((c : Thread nD τ).loc main_arg0)) (m ((c : Thread nD τ).loc main_arg2)) := by
  show StableHlo.after hostOps0 (fun b => m (c, b)) (Proc.devRef .tc main_call0_v2) = _
  after_results
  rfl

set_option maxHeartbeats 4000000 in
/-- The projection array as the region finds it. -/
theorem V_prj (c : Dev nD) : (V m c main_call0_v3 : S64x2048.Idx → EReal)
    = prjRows (m ((c : Thread nD τ).loc main_arg3)) := by
  show StableHlo.after hostOps0 (fun b => m (c, b)) (Proc.devRef .tc main_call0_v3) = _
  after_results
  rfl

set_option maxHeartbeats 4000000 in
/-- The activation array as the region finds it. -/
theorem V_act (c : Dev nD) : (V m c main_call0_v4 : S16384x2048.Idx → EReal)
    = flatAct (m ((c : Thread nD τ).loc main_arg1)) := by
  show StableHlo.after hostOps0 (fun b => m (c, b)) (Proc.devRef .tc main_call0_v4) = _
  after_results
  rfl

/-! ## Their entries at flat row 4096·b + s -/

/-- The flat row of token (b, s). -/
def flatRow (b : Fin 4) (s : Fin 4096) : Fin 16384 := ⟨b.val * 4096 + s.val, by have := b.isLt; have := s.isLt; omega⟩

/-- Every flat row is some token's. -/
theorem flatRow_surj (r : Fin 16384) : ∃ (b : Fin 4) (s : Fin 4096), r = flatRow b s :=
  ⟨⟨r.val / 4096, by have := r.isLt; omega⟩, ⟨r.val % 4096, by omega⟩, Fin.ext (by show r.val = r.val / 4096 * 4096 + r.val % 4096; omega)⟩

theorem flatIds_apply (ids : IVec S4x4096 32) (b : Fin 4) (s : Fin 4096) :
    flatIds ids (ix1 (flatRow b s)) = ids (ix2 b s) := by
  unfold flatIds
  refine shapeCast_apply _ _ _ (ix2 b s) ?_
  rw [Shape.rowMajor_val_two, Shape.rowMajor_val_one]
  rfl

theorem flatAct_apply (x : FVec Ideal S4x4096x2048 .f32) (b : Fin 4) (s : Fin 4096) (d : Fin 2048) :
    flatAct x (ix2 (flatRow b s) d) = x (ix3 b s d) := by
  unfold flatAct
  refine shapeCast_apply _ _ _ (ix3 b s d) ?_
  rw [Shape.rowMajor_val_three, Shape.rowMajor_val_two]
  rfl

/-- Narrowing to bf16 changes no exact value. -/
theorem prjRows_apply (w : FVec Ideal S64x2048 .f32) (i : S64x2048.Idx) : prjRows w i = w i := rfl

theorem wrappedIds_apply (ids : IVec S4x4096 32) (r : Fin 16384) :
    wrappedIds ids (ix1 r) = wrapId (flatIds ids (ix1 r)) := rfl

theorem startCol_apply (ids : IVec S4x4096 32) (r : Fin 16384) :
    startCol ids (ix2 r (0 : Fin 1)) = wrappedIds ids (ix1 r) := by
  unfold startCol
  refine broadcastInDim_apply _ _ _ _ (ix1 r) (fun a => ?_)
  match a with
  | ⟨0, _⟩ => show r.val = if (16384 : Nat) = 1 then 0 else r.val; rw [if_neg (by decide)]

/-- Where row r's word is in [−50257, 50257), the bounds test passes in row r. -/
theorem inTable_apply (ids : IVec S4x4096 32) (r : Fin 16384)
    (h1 : (-50257 : ℤ) ≤ (flatIds ids (ix1 r)).toInt) (h2 : (flatIds ids (ix1 r)).toInt < 50257) :
    inTable ids (ix1 r) = 1#1 := by
  unfold inTable
  refine Host.reduce_andi_of_forall _ _ _ _ _ rfl (fun i hi => ?_)
  have hr : i 0 = r := by
    have := congrFun hi 0
    exact this
  obtain ⟨p, q, rfl⟩ : ∃ (p : Fin 16384) (q : Fin 1), i = ix2 p q := ⟨i 0, i 1, eq_ix2 i⟩
  obtain rfl : q = 0 := Subsingleton.elim _ _
  obtain rfl : p = r := hr
  show IntOp.andi (IntOp.cmpi .sge (startCol ids (ix2 p (0 : Fin 1))) 0#32)
    (IntOp.cmpi .sle (startCol ids (ix2 p (0 : Fin 1))) 50256#32) = 1#1
  rw [startCol_apply, wrappedIds_apply]
  exact wrapId_bounds _ h1 h2

/-- So row r of the embedding array is the table row its word names. -/
theorem embRows_apply (ids : IVec S4x4096 32) (tab : FVec Ideal S50257x64 .f32) (r : Fin 16384) (k : Fin 64)
    (h1 : (-50257 : ℤ) ≤ (flatIds ids (ix1 r)).toInt) (h2 : (flatIds ids (ix1 r)).toInt < 50257) :
    embRows ids tab (ix2 r k) = tab (ix2 (rowOf (flatIds ids (ix1 r))) k) := by
  have hmask : broadcastInDim S16384x64 ![0] Facts₀.bcast_S16384_S16384x64_0 (inTable ids) (ix2 r k) = 1#1 := by
    rw [broadcastInDim_apply _ _ _ _ (ix1 r) (fun a => by
      match a with
      | ⟨0, _⟩ => show r.val = if (16384 : Nat) = 1 then 0 else r.val; rw [if_neg (by decide)])]
    exact inTable_apply ids r h1 h2
  have etr : ∀ (y : FVec Ideal S16384x64 .f32) (i : S16384x64.Idx),
      truncf (F := Ideal) .bf16 y Facts₀.bitsLt_bf16_f32 i = y i := fun _ _ => rfl
  have esel : ∀ (cnd : IVec S16384x64 1) (a b : FVec Ideal S16384x64 .f32) (i : S16384x64.Idx),
      select cnd a b i = Scalar.select (cnd i) (a i) (b i) := fun _ _ _ _ => rfl
  unfold embRows
  rw [etr, esel, hmask]
  unfold Scalar.select
  rw [if_pos (show (1#1 : BitVec 1) = 1 from rfl)]
  rw [Cert.Rgcn.Lib.gather_rows_apply (by decide) gather_S50257x64_S16384x1_S16384x64_1_0_n_n_0_1_164
    Facts₀.gather_S50257x64_S16384x1_S16384x64_1_0_n_n_0_1_164_wf rfl]
  refine congrArg (fun t : Fin 50257 => tab (ix2 t k)) (Fin.ext ?_)
  show min (startCol ids (ix2 r (0 : Fin 1))).toInt.toNat (50257 - 1) = min (wrapId (flatIds ids (ix1 r))).toInt.toNat (50257 - 1)
  rw [startCol_apply, wrappedIds_apply]

end Cert.GatedLookup.Kernel

end
-- ==== Proof.KernelRun.lean ====
/-
  The kernel's run, with its result named.

  After the region the program reshapes the flat output [16384, 2048] back to [4, 4096, 2048]: entry (b, s, d) is
  flat entry (4096·b + s, d). There the activation is x[b, s, d], the embedding row is the table row of token
  (b, s) — the bounds test passes, every token word being in [−50257, 50257) —, and the narrowed projection is
  the projection. So the result buffer ends holding the specification's function of the four arguments.
-/
import proofs.«419317_j69123203662023_3_alg».proof.Proof.KernelArray
import proofs.«419317_j69123203662023_3_alg».proof.Proof.HostPrefix

set_option maxRecDepth 16384

noncomputable section

namespace Cert.GatedLookup.Kernel

open Idealize.ShloMosaic Idealize.ShloMosaic.TcCoe Idealize.ShloMosaic.Tactic Idealize.ShloMosaic.ValueIdx
open Idealize.ShloMosaic.StableHlo
open Idealize.SL Idealize.SL.Sem
open Cert.KernelIdeal Cert.KernelIdeal.Gen Cert.GatedLookup

variable (m : (ℓ : Loc nD τ sig) → Buf (Elt Ideal) ℓ) (ρ : Dev nD → PrngReg)

/-- The result buffer after the host line that follows the region: the flat function, reshaped. -/
theorem tail_eq (c : Dev nD) :
    (Pipeline.afterTail₀ cfgs (dats m) 0 (V0 m) [hostOps1] c main_v0 : S4x4096x2048.Idx → EReal)
      = shapeCast S4x4096x2048 (flatFn (embArr m c) (prjArr m c) (actArr m c))
          Facts₀.shapeCasts_S16384x2048_S4x4096x2048 := by
  unfold Pipeline.afterTail₀
  show StableHlo.after hostOps1 _ (Proc.devRef .tc main_v0) = _
  after_results
  have hout := (Pipeline.withArrays_arr spec0 launch0.win.arr_inj c (V0 m c)
    (fun w => (dats m 0 c).arrAt w cfg0.N) 3).trans (final m c)
  funext i
  show shapeCast S4x4096x2048 (Pipeline.withArrays spec0 c (V0 m c) (fun w => (dats m 0 c).arrAt w cfg0.N)
      (Proc.devRef .tc (Pipeline.arrRef spec0 3))) Facts₀.shapeCasts_S16384x2048_S4x4096x2048 i = _
  rw [hout]

/-- Reshaped, the flat function of the staged arrays is the specification's result, where every token word
    lies in [−50257, 50257). -/
theorem reshaped_eq (c : Dev nD)
    (hr : ∀ i : S4x4096.Idx, (-50257 : ℤ) ≤ ((m ((c : Thread nD τ).loc main_arg0) : IVec S4x4096 32) i).toInt
      ∧ ((m ((c : Thread nD τ).loc main_arg0) : IVec S4x4096 32) i).toInt < 50257) :
    shapeCast S4x4096x2048 (flatFn (embArr m c) (prjArr m c) (actArr m c)) Facts₀.shapeCasts_S16384x2048_S4x4096x2048
      = result (m ((c : Thread nD τ).loc main_arg0)) (m ((c : Thread nD τ).loc main_arg1))
          (m ((c : Thread nD τ).loc main_arg2)) (m ((c : Thread nD τ).loc main_arg3)) := by
  funext i
  obtain ⟨b, s, d, rfl⟩ : ∃ (b : Fin 4) (s : Fin 4096) (d : Fin 2048), i = ix3 b s d := ⟨i 0, i 1, i 2, eq_ix3 i⟩
  rw [shapeCast_apply _ _ (ix3 b s d) (ix2 (flatRow b s) d) (by
    rw [Shape.rowMajor_val_two, Shape.rowMajor_val_three]; rfl)]
  have hE : embArr m c = embRows (m ((c : Thread nD τ).loc main_arg0)) (m ((c : Thread nD τ).loc main_arg2)) := V_emb m c
  have hW : prjArr m c = prjRows (m ((c : Thread nD τ).loc main_arg3)) := V_prj m c
  have hX : actArr m c = flatAct (m ((c : Thread nD τ).loc main_arg1)) := V_act m c
  rw [hE, hW, hX]
  have hfi := flatIds_apply (m ((c : Thread nD τ).loc main_arg0)) b s
  have hin := hr (ix2 b s)
  have hrow : ∀ k : Fin 64, embRows (m ((c : Thread nD τ).loc main_arg0)) (m ((c : Thread nD τ).loc main_arg2)) (ix2 (flatRow b s) k)
      = (m ((c : Thread nD τ).loc main_arg2) : FVec Ideal S50257x64 .f32)
          (ix2 (rowOf ((m ((c : Thread nD τ).loc main_arg0) : IVec S4x4096 32) (ix2 b s))) k) := fun k => by
    rw [embRows_apply _ _ (flatRow b s) k (by rw [hfi]; exact hin.1) (by rw [hfi]; exact hin.2), hfi]
  show flatAct (m ((c : Thread nD τ).loc main_arg1)) (ix2 (flatRow b s) d)
      * gate (∑ k : Fin 64, embRows (m ((c : Thread nD τ).loc main_arg0)) (m ((c : Thread nD τ).loc main_arg2)) (ix2 (flatRow b s) k)
        * prjRows (m ((c : Thread nD τ).loc main_arg3)) (ix2 k d)) = _
  rw [flatAct_apply]
  simp only [hrow, prjRows_apply]
  rfl

/-- THE KERNEL'S RUN: every weakly fair execution terminates with the result buffer at the specification's
    function of the arguments, and the arguments unchanged — where every token word lies in [−50257, 50257). -/
theorem run
    (hr : ∀ (c : Dev nD) (i : S4x4096.Idx), (-50257 : ℤ) ≤ ((m ((c : Thread nD τ).loc main_arg0) : IVec S4x4096 32) i).toInt
      ∧ ((m ((c : Thread nD τ).loc main_arg0) : IVec S4x4096 32) i).toInt < 50257) :
    θ_run defs (onTc (τ := τ) (main (F := Ideal))) ⟨m, fun _ => 0, ρ⟩ (fun r => ∀ c : Dev nD,
      r.2.mem ((c.tc : Thread nD τ).loc main_v0)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0 (Pipeline.mem_restRefs_of main_v0 (by decide) (by decide))).trans
        ((tail_eq m c).trans (reshaped_eq m c (hr c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.GatedLookup.Kernel

end
-- ==== Proof.lean ====
/-
  A gated embedding lookup against its reference, over the extended reals.

  Both programs compute out[b, s, d] = x[b, s, d] · (1 + σ(Σ_k T[row(b, s), k] · W[k, d])): token (b, s) names a
  row of the table T, the row is projected through W, and σ is the logistic function 1 / (1 + e^(−z)).

  The one place they could differ is the row lookup. Both wrap a negative token word (a + 50257). The kernel's
  lookup then tests the wrapped word against the table's bounds and fills a row that fails the test with a
  not-a-number pattern; the reference's clamps the word into the table. The precondition keeps every token word
  in [−50257, 50257), the range on which the reference's own indexing is defined; there the wrapped word lies in
  [0, 50256], the test passes and the clamp changes nothing, so both read the same row.

  Nothing else needs a hypothesis. Narrowing to bf16 is the identity on exact values; the kernel's four
  256-row products into a zero accumulator and the reference's one contraction are the same sum of the same
  products at each element; the kernel's logistic is the reference's 1 / (1 + e^(−z)); flat row 4096·b + s of
  the kernel's [16384, ·] arrays is token (b, s). No entry is required to be finite: no term is regrouped.

  The kernel's side: the chunk expression at an index (Chunk), the block the body leaves (Block), the whole
  output array from its sixteen blocks (KernelArray), the host lines before the call read at a flat row
  (HostPrefix) and the run with its result named (KernelRun). The reference's side: its stages read at an index
  (RefValue). The precondition read back at the token words: TokenRange.
-/
import proofs.«419317_j69123203662023_3_alg».proof.Defs
import proofs.«419317_j69123203662023_3_alg».proof.Proof.Gen.Kernel
import proofs.«419317_j69123203662023_3_alg».proof.Proof.Gen.Kernel.Skeleton
import proofs.«419317_j69123203662023_3_alg».proof.Proof.Gen.Kernel.Launch
import proofs.«419317_j69123203662023_3_alg».proof.Proof.Gen.Kernel.Points
import proofs.«419317_j69123203662023_3_alg».proof.Proof.Gen.Kernel.Frame
import proofs.«419317_j69123203662023_3_alg».proof.Proof.Gen.KernelIdeal
import proofs.«419317_j69123203662023_3_alg».proof.Proof.Gen.KernelIdeal.Skeleton
import proofs.«419317_j69123203662023_3_alg».proof.Proof.Gen.KernelIdeal.Launch
import proofs.«419317_j69123203662023_3_alg».proof.Proof.Gen.KernelIdeal.Points
import proofs.«419317_j69123203662023_3_alg».proof.Proof.Gen.KernelIdeal.Frame
import proofs.«419317_j69123203662023_3_alg».proof.Proof.Gen.ReferenceIdeal
import proofs.«419317_j69123203662023_3_alg».proof.Proof.Gen.ReferenceIdeal.Run
import proofs.«419317_j69123203662023_3_alg».proof.Proof.Gen.ReferenceIdeal.Read
import proofs.«419317_j69123203662023_3_alg».proof.Proof.Gen.Pre_finite_inputs
import proofs.«419317_j69123203662023_3_alg».proof.Proof.TokenRange
import proofs.«419317_j69123203662023_3_alg».proof.Proof.RefValue
import proofs.«419317_j69123203662023_3_alg».proof.Proof.KernelRun
import Idealize.ShloMosaic.Adequacy
import Idealize.ShloMosaic.Init

noncomputable section

namespace Cert.Proof

open Idealize.ShloMosaic Idealize.ShloMosaic.TcCoe Idealize.SL.Sem

/-- The three programs run, nothing faulting, their arguments unchanged: the kernels' generated frames, and the
    reference's run with its result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with every token word in [−50257, 50257), both idealized programs
    end with the gated lookup of the arguments in their result buffers. -/
theorem algebraic : Cert.algebraic_KernelIdeal_ReferenceIdeal := by
  intro m ρ m' ρ' hpre hagree
  have hr : ∀ (c : Dev Cert.KernelIdeal.nD) (i : Cert.KernelIdeal.S4x4096.Idx),
      (-50257 : ℤ) ≤ ((m ((c : Thread Cert.KernelIdeal.nD Cert.KernelIdeal.τ).loc Cert.KernelIdeal.main_arg0) : IVec Cert.KernelIdeal.S4x4096 32) i).toInt
      ∧ ((m ((c : Thread Cert.KernelIdeal.nD Cert.KernelIdeal.τ).loc Cert.KernelIdeal.main_arg0) : IVec Cert.KernelIdeal.S4x4096 32) i).toInt < 50257 :=
    fun c i => Cert.GatedLookup.tokens_in_range _ _ _ _ (hpre c) i
  refine ⟨_, Cert.GatedLookup.Kernel.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v16_eq _ _ _ _).trans (Cert.GatedLookup.Reference.result_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
